-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S1 : Shape := ⟨1, ![1]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16777216 .f32) (main_arg1 : FVec F S16777216 .f32) (main_arg2 : FVec F S16777216 .f32) (main_arg3 : FVec F S16777216 .f32) (main_arg4 : FVec F S1 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_arg4 main_v13 main_v16
-- ==== Kernel.lean ====
abbrev S16777216 : Shape := ⟨1, ![16777216]⟩
abbrev S1 : Shape := ⟨1, ![1]⟩
abbrev S2x65536x128 : Shape := ⟨3, ![2, 65536, 128]⟩
abbrev S2x8x128 : Shape := ⟨3, ![2, 8, 128]⟩
abbrev S1x4096x128 : Shape := ⟨3, ![1, 4096, 128]⟩
abbrev S1x8x128 : Shape := ⟨3, ![1, 8, 128]⟩
abbrev S8x128 : Shape := ⟨2, ![8, 128]⟩
abbrev S4096x128 : Shape := ⟨2, ![4096, 128]⟩
abbrev S4096 : Shape := ⟨1, ![4096]⟩
abbrev S4096x1 : Shape := ⟨2, ![4096, 1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 19
  | .vmem => 11
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S1, .f32⟩
  | .hbm, ⟨5, _⟩ => ⟨S2x65536x128, .f32⟩
  | .hbm, ⟨6, _⟩ => ⟨S2x65536x128, .f32⟩
  | .hbm, ⟨7, _⟩ => ⟨S2x65536x128, .f32⟩
  | .hbm, ⟨8, _⟩ => ⟨S2x65536x128, .f32⟩
  | .hbm, ⟨9, _⟩ => ⟨S2x8x128, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16777216_S2x65536x128 : S16777216.ShapeCasts S2x65536x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x65536x128.size a
  hwx0_0 : ∀ i : grid0.Coords, EltTy.bits .f32 = 32 ∨ (Rect.block (s := S2x65536x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x65536x128.size a
  hwx0_1 : ∀ i : grid0.Coords, EltTy.bits .f32 = 32 ∨ (Rect.block (s := S2x65536x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S2x65536x128.size a
  hwx0_2 : ∀ i : grid0.Coords, EltTy.bits .f32 = 32 ∨ (Rect.block (s := S2x65536x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S2x65536x128.size a
  hwx0_3 : ∀ i : grid0.Coords, EltTy.bits .f32 = 32 ∨ (Rect.block (s := S2x65536x128) S1x4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216 : Shape := ⟨1, ![16777216]⟩
abbrev S1 : Shape := ⟨1, ![1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S1, .f32⟩
  | .hbm, ⟨5, _⟩ => ⟨S_, .f32⟩
  | .hbm, ⟨6, _⟩ => ⟨S16777216, .f32⟩
  | .hbm, ⟨7, _⟩ => ⟨S16777216, .i1⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel
  shapeCasts_S1_S_ : S1.ShapeCasts S_

variable [Facts₀]

class Facts : Prop extends Facts₀ where

variable [Facts]
-- ==== Proof.Pieces.lean ====
/-
  What one run of the kernel body leaves behind, as values.

  The body keeps a running total in a scratch block of 8 x 128 equal entries. It loads the four staged input blocks,
  forms this block's sum, adds it to the total, stores the total back, and copies the total into the output's staging
  block. At a block whose index along the second grid axis is zero it first stores zeros into the total. Every store
  covers its whole buffer, so a buffer ends at its last store's value, and a load after a store reads that value.
-/
import proofs.«135542_j28269474742650_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! The kernel body, run once for a block at which the running total restarts and once for any other block, leaves
    in the scratch total and in the output's staging block what its stores wrote last. Each buffer is stored whole, so
    what it holds is the last store's value; a load of the total after a store reads that store's value. With
    `x0 … x3` the staged blocks of x, weights, fatigue and u (the body loads them as u, weights, fatigue, x) and `xs0`
    the total the block before left:

      restart:  total = (zero block) + (this block's sum),   output block = that total with a leading unit axis
      other:    total = xs0 + (this block's sum),            output block = that total with a leading unit axis -/

/-- A block that does not restart the total: the total becomes the total before plus this block's sum. -/
theorem total_grow (c : Dev nD) (i : grid0.Coords)
    (a2 : Memref sig .tc .vmem S1x4096x128 .f32) (h2 : a2.IsWhole) (a3 : Memref sig .tc .vmem S1x4096x128 .f32) (h3 : a3.IsWhole)
    (a4 : Memref sig .tc .vmem S1x4096x128 .f32) (h4 : a4.IsWhole) (a5 : Memref sig .tc .vmem S1x4096x128 .f32) (h5 : a5.IsWhole)
    (a6 : Memref sig .tc .vmem S1x8x128 .f32) (h6 : a6.IsWhole) (a7 : Memref sig .tc .vmem S8x128 .f32) (h7 : a7.IsWhole)
    (hc : ¬cond0_0 i) (x0 x1 x2 x3 : Vec F S1x4096x128 .f32) (xs0 : Vec F S8x128 .f32) :
    sout0_B_0 c i a2 h2 a3 h3 a4 h4 a5 h5 a6 h6 a7 h7 hc x0 x1 x2 x3 xs0 = k0_pay3 x3 x1 x2 x0 xs0 := by
  unfold sout0_B_0
  rw [View.read_writes_eq_canon _ _ _ (scover0_B_0 c i a2 h2 a3 h3 a4 h4 a5 h5 a6 h6 a7 h7 hc x0 x1 x2 x3 xs0)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S1x4096x128) hz3, View.ld_unit_zero (S := S8x128) hz2]

/-- and the output's staging block is that total. -/
theorem block_grow (c : Dev nD) (i : grid0.Coords)
    (a2 : Memref sig .tc .vmem S1x4096x128 .f32) (h2 : a2.IsWhole) (a3 : Memref sig .tc .vmem S1x4096x128 .f32) (h3 : a3.IsWhole)
    (a4 : Memref sig .tc .vmem S1x4096x128 .f32) (h4 : a4.IsWhole) (a5 : Memref sig .tc .vmem S1x4096x128 .f32) (h5 : a5.IsWhole)
    (a6 : Memref sig .tc .vmem S1x8x128 .f32) (h6 : a6.IsWhole) (a7 : Memref sig .tc .vmem S8x128 .f32) (h7 : a7.IsWhole)
    (hc : ¬cond0_0 i) (x0 x1 x2 x3 : Vec F S1x4096x128 .f32) (xs0 : Vec F S8x128 .f32) :
    out0_B_4 c i a2 h2 a3 h3 a4 h4 a5 h5 a6 h6 a7 h7 hc x0 x1 x2 x3 xs0 = k0_pay1 (k0_pay3 x3 x1 x2 x0 xs0) := by
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero hz3]
  simp only [View.readCov_unit_zero (S := S8x128) _ hz2, View.readAt_eq_ld, h2.read_unread, h3.read_unread, h4.read_unread, h5.read_unread, h7.read_unread,
    View.ld_unit_zero (S := S1x4096x128) hz3, View.ld_unit_zero (S := S8x128) hz2]

/-- A block that restarts the total: the total becomes the zero block plus this block's sum. -/
theorem total_restart (c : Dev nD) (i : grid0.Coords)
    (a2 : Memref sig .tc .vmem S1x4096x128 .f32) (h2 : a2.IsWhole) (a3 : Memref sig .tc .vmem S1x4096x128 .f32) (h3 : a3.IsWhole)
    (a4 : Memref sig .tc .vmem S1x4096x128 .f32) (h4 : a4.IsWhole) (a5 : Memref sig .tc .vmem S1x4096x128 .f32) (h5 : a5.IsWhole)
    (a6 : Memref sig .tc .vmem S1x8x128 .f32) (h6 : a6.IsWhole) (a7 : Memref sig .tc .vmem S8x128 .f32) (h7 : a7.IsWhole)
    (hc : cond0_0 i) (x0 x1 x2 x3 : Vec F S1x4096x128 .f32) :
    sout0_A_0 c i a2 h2 a3 h3 a4 h4 a5 h5 a6 h6 a7 h7 hc x0 x1 x2 x3 = k0_pay3 x3 x1 x2 x0 k0_pay2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_cons_unit_zero (S := S8x128) hz2]
  simp only [View.readCov_unit_zero (S := S8x128) _ hz2, View.readAt_eq_ld, h2.read_unread, h3.read_unread, h4.read_unread, h5.read_unread, h7.read_unread,
    View.ld_unit_zero (S := S1x4096x128) hz3, View.ld_unit_zero (S := S8x128) hz2]

/-- and the output's staging block is that total. -/
theorem block_restart (c : Dev nD) (i : grid0.Coords)
    (a2 : Memref sig .tc .vmem S1x4096x128 .f32) (h2 : a2.IsWhole) (a3 : Memref sig .tc .vmem S1x4096x128 .f32) (h3 : a3.IsWhole)
    (a4 : Memref sig .tc .vmem S1x4096x128 .f32) (h4 : a4.IsWhole) (a5 : Memref sig .tc .vmem S1x4096x128 .f32) (h5 : a5.IsWhole)
    (a6 : Memref sig .tc .vmem S1x8x128 .f32) (h6 : a6.IsWhole) (a7 : Memref sig .tc .vmem S8x128 .f32) (h7 : a7.IsWhole)
    (hc : cond0_0 i) (x0 x1 x2 x3 : Vec F S1x4096x128 .f32) :
    out0_A_4 c i a2 h2 a3 h3 a4 h4 a5 h5 a6 h6 a7 h7 hc x0 x1 x2 x3 = k0_pay1 (k0_pay3 x3 x1 x2 x0 k0_pay2) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz3]
  simp only [View.readCov_cons_toLoadRect, View.readCov_unit_zero (S := S8x128) _ hz2, View.readAt_eq_ld, h2.read_unread, h3.read_unread, h4.read_unread, h5.read_unread, h7.read_unread,
    View.ld_unit_zero (S := S1x4096x128) hz3, View.ld_unit_zero (S := S8x128) hz2]

end Cert.KernelIdeal.Pieces

end
-- ==== Proof.Sums.lean ====
/-
  The arithmetic the two programs share, over the extended reals.

  Each of the 16,777,216 synapses contributes  w · f · x  when its draw u is below the release probability, and
  nothing otherwise. The reference multiplies by the 0/1 mask, ((mask · w) · f) · x; the kernel selects between the
  product (w · f) · x and zero. These are one number: 1 · w = w, 0 times anything is 0 (also times an infinity, by the
  convention of the extended reals), and multiplication is associative and commutative.

  The kernel adds the contributions in 32 blocks of 4096 rows of 128 lanes: synapse (t · 4096 + r) · 128 + l is lane l
  of row r of block t. It keeps a running total that is cleared at blocks 0 and 16, so after block n the total holds
  the blocks from the last multiple of 16 up to n; the totals after blocks 15 and 31 are then added. The reference adds
  all synapses in one sum. Addition of extended reals is commutative and associative, so the two groupings agree.
-/
import Idealize.ShloMosaic.PureOps.Ideal
import Idealize.ShloMosaic.Lib.ValueIdx
import Mathlib.Algebra.BigOperators.Fin
import Mathlib.Algebra.BigOperators.Intervals
import Mathlib.Logic.Equiv.Fin.Basic

noncomputable section

open scoped BigOperators

namespace Cert.Synapse

open Idealize.ShloMosaic Idealize.ShloMosaic.ValueIdx

/-! ## One synapse -/

/-- One synapse's contribution as the kernel forms it: the product where the gate bit is set, zero elsewhere. -/
def gated (b : BitVec 1) (w f x : EReal) : EReal := Scalar.select b ((w * f) * x) 0

theorem bit_cases (b : BitVec 1) : b = 0#1 ∨ b = 1#1 := by
  revert b; decide

/-- The reference's masked product, the gate bit read as the number 0 or 1, is the kernel's gated product. -/
theorem mask_mul_eq_gated (b : BitVec 1) (w f x : EReal) :
    ((((b.toNat : ℝ) : EReal) * w) * f) * x = gated b w f x := by
  rcases bit_cases b with rfl | rfl
  · show ((((0 : ℕ) : ℝ) : EReal) * w) * f * x = Scalar.select 0#1 ((w * f) * x) 0
    rw [select_zero, Nat.cast_zero, EReal.coe_zero, zero_mul, zero_mul, zero_mul]
  · show ((((1 : ℕ) : ℝ) : EReal) * w) * f * x = Scalar.select 1#1 ((w * f) * x) 0
    rw [select_one, Nat.cast_one, EReal.coe_one, one_mul]

/-! ## The synapses as blocks of rows of lanes -/

/-- The synapse that is lane `l` of row `r` of block `t`. -/
abbrev flat (t : Fin 32) (r : Fin 4096) (l : Fin 128) : Fin 16777216 :=
  ⟨(t.val * 4096 + r.val) * 128 + l.val, by have := t.isLt; have := r.isLt; have := l.isLt; omega⟩

/-- (block, row, lane) ↦ synapse is a bijection. -/
def flatEquiv : Fin 32 × Fin 4096 × Fin 128 ≃ Fin 16777216 :=
  ((Equiv.prodCongr (Equiv.refl (Fin 32)) finProdFinEquiv).trans finProdFinEquiv).trans (finCongr (by norm_num))

theorem flatEquiv_apply (t : Fin 32) (r : Fin 4096) (l : Fin 128) : flatEquiv (t, r, l) = flat t r l := by
  apply Fin.ext
  show l.val + 128 * r.val + 4096 * 128 * t.val = (t.val * 4096 + r.val) * 128 + l.val
  omega

section Monoid
variable {M : Type*} [AddCommMonoid M]

/-- A sum over all synapses is the sum over the blocks of the sums over each block's rows and lanes. -/
theorem sum_flat (g : Fin 16777216 → M) :
    ∑ n, g n = ∑ t : Fin 32, ∑ r : Fin 4096, ∑ l : Fin 128, g (flat t r l) := by
  rw [← Equiv.sum_comp flatEquiv g, Fintype.sum_prod_type]
  refine Finset.sum_congr rfl fun t _ => ?_
  rw [Fintype.sum_prod_type]
  exact Finset.sum_congr rfl fun r _ => Finset.sum_congr rfl fun l _ => congrArg g (flatEquiv_apply t r l)

/-- The indices of a rank-1 array are its positions. -/
def idxEquiv1 {n : ℕ} : (⟨1, ![n]⟩ : Shape).Idx ≃ Fin n where
  toFun j := j 0
  invFun := ix1
  left_inv j := (eq_ix1 j).symm
  right_inv _ := rfl

theorem sum_idx1 {n : ℕ} (g : (⟨1, ![n]⟩ : Shape).Idx → M) : ∑ j, g j = ∑ a : Fin n, g (ix1 a) :=
  (Equiv.sum_comp idxEquiv1.symm g).symm

/-! ## The running total -/

/-- At a block whose number is a multiple of 16 the total restarts: it holds that block alone. -/
theorem sum_Ico_restart (p : ℕ → M) (n : ℕ) (h : n % 16 = 0) :
    ∑ s ∈ Finset.Ico (16 * (n / 16)) (n + 1), p s = p n := by
  have e : 16 * (n / 16) = n := by omega
  rw [e, Nat.Ico_succ_singleton, Finset.sum_singleton]

/-- At any other block the total grows by that block. -/
theorem sum_Ico_grow (p : ℕ → M) (n : ℕ) (h : ¬(n + 1) % 16 = 0) :
    ∑ s ∈ Finset.Ico (16 * ((n + 1) / 16)) (n + 1 + 1), p s
      = (∑ s ∈ Finset.Ico (16 * (n / 16)) (n + 1), p s) + p (n + 1) := by
  have e : 16 * ((n + 1) / 16) = 16 * (n / 16) := by omega
  rw [e, Finset.sum_Ico_succ_top (by omega : 16 * (n / 16) ≤ n + 1)]

/-- The totals after blocks 15 and 31 together are the sum over all 32 blocks. -/
theorem sum_two_groups (p : ℕ → M) :
    (∑ s ∈ Finset.Ico 0 16, p s) + ∑ s ∈ Finset.Ico 16 32, p s = ∑ t : Fin 32, p t.val := by
  rw [Finset.sum_Ico_consecutive p (by norm_num) (by norm_num), ← Finset.range_eq_Ico, Finset.sum_range]

end Monoid

end Cert.Synapse

end
-- ==== Proof.Payload.lean ====
/-
  The kernel body's arithmetic at an index, over the extended reals.

  With u, w, f, x the four staged blocks (1 x 4096 x 128 each) and T the running total (8 x 128 equal entries), the
  body forms   g(r, l) = (w · f) · x  where  u < p,  0 elsewhere   (p the release probability's float),
  sums g over the 128 lanes of each row, then over the 4096 rows, spreads that one number over 8 x 128 and adds it to
  T. So every entry of the new total is the old entry plus the block's sum  Σ_r Σ_l g(r, l).  The zero block the
  total restarts from has every entry 0, and the output's staging block is the total with a leading unit axis.
-/
import proofs.«135542_j28269474742650_1_alg».proof.Proof.Gen.KernelIdeal.Skeleton
import proofs.«135542_j28269474742650_1_alg».proof.Proof.Sums
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.Synapse

/-- The lane sum of a 4096 x 128 block, at row r. -/
theorem laneSum_apply (s : FVec Ideal S4096x128 .f32) (h : S4096x128.Reduces [1] S4096) (hφ : FKind.Formats .f32)
    (hacc : (0x00000000#32 : BitVec 32) = 0x00000000#32) (r : Fin 4096) :
    multiReduction .add [1] S4096 s 0x00000000#32 h hφ hacc (ix1 r) = ∑ l : Fin 128, s (ix2 r l) := by
  refine (Ideal.multiReduction_add_single s 0x00000000#32 h hφ hacc (ix1 r)).trans ?_
  refine Finset.sum_congr rfl fun l _ => congrArg s ?_
  funext a
  match a with
  | ⟨0, _⟩ => exact Fin.ext rfl
  | ⟨1, _⟩ => exact Fin.ext rfl

/-- The sum over the rows of a 4096 x 1 column. -/
theorem rowSum_apply (s : FVec Ideal S4096x1 .f32) (h : S4096x1.Reduces [0] S1) (hφ : FKind.Formats .f32)
    (hacc : (0x00000000#32 : BitVec 32) = 0x00000000#32) (z : Fin 1) :
    multiReduction .add [0] S1 s 0x00000000#32 h hφ hacc (ix1 z) = ∑ r : Fin 4096, s (ix2 r (0 : Fin 1)) := by
  refine (Ideal.multiReduction_add_single s 0x00000000#32 h hφ hacc (ix1 z)).trans ?_
  refine Finset.sum_congr rfl fun r _ => congrArg s ?_
  funext a
  match a with
  | ⟨0, _⟩ => exact Fin.ext rfl
  | ⟨1, _⟩ => exact Fin.ext (by show (z : ℕ) = 0; omega)

/-- A 4096-vector viewed as a 4096 x 1 column. -/
theorem column_apply {α : Type} (s : S4096.Idx → α) (h : S4096.ShapeCasts S4096x1) (r : Fin 4096) (z : Fin 1) :
    shapeCast S4096x1 s h (ix2 r z) = s (ix1 r) :=
  shapeCast_apply s h _ _ (by
    have hz : z.val = 0 := by omega
    rw [Shape.rowMajor_val_one, Shape.rowMajor_val_two]
    show r.val = r.val * 1 + z.val
    omega)

/-- A 1-vector viewed as a 1 x 1 array. -/
theorem one_apply {α : Type} (s : S1.Idx → α) (h : S1.ShapeCasts S1x1) (y z : Fin 1) :
    shapeCast S1x1 s h (ix2 y z) = s (ix1 (0 : Fin 1)) :=
  shapeCast_apply s h _ _ (by
    have hy : y.val = 0 := by omega
    have hz : z.val = 0 := by omega
    rw [Shape.rowMajor_val_one, Shape.rowMajor_val_two]
    show (0 : ℕ) = y.val * 1 + z.val
    omega)

/-- A 1 x 1 array spread over 8 x 128. -/
theorem spread_apply {α : Type} (s : S1x1.Idx → α) (h : S1x1.Broadcasts S8x128) (a : Fin 8) (b : Fin 128) :
    broadcastTo S8x128 s h (ix2 a b) = s (ix2 (0 : Fin 1) (0 : Fin 1)) :=
  broadcastTo_apply s h _ _ (fun ax => by
    match ax with
    | ⟨0, _⟩ => rfl
    | ⟨1, _⟩ => rfl)

/-- The release probability as the float both programs compare against. -/
abbrev pRelease : EReal := Ideal.ofBits .f32 0x3F666666#32

/-- One block's sum: over its rows and lanes, the gated product. -/
def blockSum (u w f x : Vec Ideal S1x4096x128 .f32) : EReal :=
  ∑ r : Fin 4096, ∑ l : Fin 128,
    gated (Ideal.cmp .olt (u (ix3 (0 : Fin 1) r l)) pRelease) (w (ix3 (0 : Fin 1) r l)) (f (ix3 (0 : Fin 1) r l)) (x (ix3 (0 : Fin 1) r l))

/-- The new total at any entry: the old entry plus the block's sum. -/
theorem total_apply (u w f x : Vec Ideal S1x4096x128 .f32) (T : Vec Ideal S8x128 .f32) (a : Fin 8) (b : Fin 128) :
    k0_pay3 (F := Ideal) u w f x T (ix2 a b) = T (ix2 a b) + blockSum u w f x := by
  simp only [k0_pay3, shapeCast_self, addf_apply, spread_apply, one_apply]
  rw [rowSum_apply]
  refine congrArg (T (ix2 a b) + ·) (Finset.sum_congr rfl fun r _ => ?_)
  rw [column_apply, laneSum_apply]
  refine Finset.sum_congr rfl fun l _ => ?_
  simp only [select_apply, cmpf_apply, mulf_apply, broadcast_apply, shapeCast_1ab_ab_apply]
  rw [show (FloatOps.ofBits FTy.f32 0x00000000#32 : Ideal .f32) = 0 from Ideal.ofBits_zero_f32]
  rfl

/-- The block the total restarts from is zero at every entry. -/
theorem zero_apply (a : Fin 8) (b : Fin 128) : k0_pay2 (F := Ideal) (ix2 a b) = 0 := by
  simp only [k0_pay2, shapeCast_self, broadcast_apply]
  exact Ideal.ofBits_zero_f32

/-- The output's staging block is the total with a leading unit axis. -/
theorem staged_apply (T : Vec Ideal S8x128 .f32) (z : Fin 1) (a : Fin 8) (b : Fin 128) :
    k0_pay1 (F := Ideal) T (ix3 z a b) = T (ix2 a b) := by
  simp only [k0_pay1, shapeCast_ab_1ab_apply]

end Cert.KernelIdeal.Payload

end
-- ==== Proof.Blocks.lean ====
/-
  Which synapses a staged block holds.

  Before the kernel region the program views each of the four arguments, 16,777,216 long, as 2 x 65536 x 128 (the same
  row-major order). At grid point t = 16 h + i the region stages, of each such array, the block of rows 4096 i ..
  4096 i + 4095 of slab h. Entry (0, r, l) of that block is therefore entry (h, 4096 i + r, l) of the viewed array, that
  is synapse ((h · 65536) + 4096 i + r) · 128 + l = (t · 4096 + r) · 128 + l of the argument. The output array is
  2 x 8 x 128 and point t stages its slab h.
-/
import proofs.«135542_j28269474742650_1_alg».proof.Proof.Gen.KernelIdeal.Frame
import proofs.«135542_j28269474742650_1_alg».proof.Proof.Sums
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Synapse

variable {F : FTy → Type} [FloatOps F]
variable (m : (ℓ : Loc nD τ sig) → Buf (Elt F) ℓ)

/-- A grid point as a block number. -/
abbrev blockNo (t : Fin cfg0.N) : Fin 32 := ⟨t.val, lt_of_lt_of_eq t.isLt (show cfg0.N = 32 from N_0)⟩

/-- The staged blocks of x, weights, fatigue and u at a grid point, and the four arguments, at their literal types. -/
abbrev xblk (c : Dev nD) (t : Fin cfg0.N) : Vec F S1x4096x128 .f32 := iblk m c 0 t
abbrev wblk (c : Dev nD) (t : Fin cfg0.N) : Vec F S1x4096x128 .f32 := iblk m c 1 t
abbrev fblk (c : Dev nD) (t : Fin cfg0.N) : Vec F S1x4096x128 .f32 := iblk m c 2 t
abbrev ublk (c : Dev nD) (t : Fin cfg0.N) : Vec F S1x4096x128 .f32 := iblk m c 3 t
abbrev xarg (c : Dev nD) : Vec F S16777216 .f32 := m ((c : Thread nD τ).loc main_arg0)
abbrev warg (c : Dev nD) : Vec F S16777216 .f32 := m ((c : Thread nD τ).loc main_arg1)
abbrev farg (c : Dev nD) : Vec F S16777216 .f32 := m ((c : Thread nD τ).loc main_arg2)
abbrev uarg (c : Dev nD) : Vec F S16777216 .f32 := m ((c : Thread nD τ).loc main_arg3)

/-! ## The arrays the region finds are the arguments viewed 2 x 65536 x 128 -/

theorem viewed_x (c : Dev nD) : V m c main_v0 = shapeCast S2x65536x128 (xarg m c) shapeCasts_S16777216_S2x65536x128 := by
  show StableHlo.after hostOps0 (fun b => m (c, b)) (Proc.devRef .tc main_v0) = _
  after_results
  rfl
theorem viewed_w (c : Dev nD) : V m c main_v1 = shapeCast S2x65536x128 (warg m c) shapeCasts_S16777216_S2x65536x128 := by
  show StableHlo.after hostOps0 (fun b => m (c, b)) (Proc.devRef .tc main_v1) = _
  after_results
  rfl
theorem viewed_f (c : Dev nD) : V m c main_v2 = shapeCast S2x65536x128 (farg m c) shapeCasts_S16777216_S2x65536x128 := by
  show StableHlo.after hostOps0 (fun b => m (c, b)) (Proc.devRef .tc main_v2) = _
  after_results
  rfl
theorem viewed_u (c : Dev nD) : V m c main_v3 = shapeCast S2x65536x128 (uarg m c) shapeCasts_S16777216_S2x65536x128 := by
  show StableHlo.after hostOps0 (fun b => m (c, b)) (Proc.devRef .tc main_v3) = _
  after_results
  rfl

/-! ## Where a point's blocks sit -/

theorem index_x : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index_w : ∀ t : Fin cfg0.N, win0_1.index t 0 = t.val / 16 ∧ win0_1.index t 1 = t.val % 16 ∧ win0_1.index t 2 = 0 :=
  (by decide +kernel : ∀ t : Fin grid0.N, win0_1.index t 0 = t.val / 16 ∧ win0_1.index t 1 = t.val % 16 ∧ win0_1.index t 2 = 0)
theorem index_f : ∀ t : Fin cfg0.N, win0_2.index t 0 = t.val / 16 ∧ win0_2.index t 1 = t.val % 16 ∧ win0_2.index t 2 = 0 :=
  (by decide +kernel : ∀ t : Fin grid0.N, win0_2.index t 0 = t.val / 16 ∧ win0_2.index t 1 = t.val % 16 ∧ win0_2.index t 2 = 0)
theorem index_u : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem index_out : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-! ## A staged block's entries are the block's synapses -/

theorem xblk_apply (c : Dev nD) (t : Fin cfg0.N) (r : Fin 4096) (l : Fin 128) :
    xblk m c t (ix3 (0 : Fin 1) r l) = xarg m c (ix1 (flat (blockNo t) r l)) := by
  obtain ⟨i0, i1, i2⟩ := index_x t
  unfold xblk iblk
  rw [View.read_apply]
  show V m c main_v0 _ = _
  rw [viewed_x]
  refine shapeCast_apply _ _ _ _ ?_
  rw [Shape.rowMajor_val_one, Shape.rowMajor_val_three]
  show (t.val * 4096 + r.val) * 128 + l.val
    = ((win0_0.index t 0 * 1 + 1 * 0) * 65536 + (win0_0.index t 1 * 4096 + 1 * r.val)) * 128 + (win0_0.index t 2 * 128 + 1 * l.val)
  rw [i0, i1, i2]
  have := t.isLt
  omega

theorem wblk_apply (c : Dev nD) (t : Fin cfg0.N) (r : Fin 4096) (l : Fin 128) :
    wblk m c t (ix3 (0 : Fin 1) r l) = warg m c (ix1 (flat (blockNo t) r l)) := by
  obtain ⟨i0, i1, i2⟩ := index_w t
  unfold wblk iblk
  rw [View.read_apply]
  show V m c main_v1 _ = _
  rw [viewed_w]
  refine shapeCast_apply _ _ _ _ ?_
  rw [Shape.rowMajor_val_one, Shape.rowMajor_val_three]
  show (t.val * 4096 + r.val) * 128 + l.val
    = ((win0_1.index t 0 * 1 + 1 * 0) * 65536 + (win0_1.index t 1 * 4096 + 1 * r.val)) * 128 + (win0_1.index t 2 * 128 + 1 * l.val)
  rw [i0, i1, i2]
  have := t.isLt
  omega

theorem fblk_apply (c : Dev nD) (t : Fin cfg0.N) (r : Fin 4096) (l : Fin 128) :
    fblk m c t (ix3 (0 : Fin 1) r l) = farg m c (ix1 (flat (blockNo t) r l)) := by
  obtain ⟨i0, i1, i2⟩ := index_f t
  unfold fblk iblk
  rw [View.read_apply]
  show V m c main_v2 _ = _
  rw [viewed_f]
  refine shapeCast_apply _ _ _ _ ?_
  rw [Shape.rowMajor_val_one, Shape.rowMajor_val_three]
  show (t.val * 4096 + r.val) * 128 + l.val
    = ((win0_2.index t 0 * 1 + 1 * 0) * 65536 + (win0_2.index t 1 * 4096 + 1 * r.val)) * 128 + (win0_2.index t 2 * 128 + 1 * l.val)
  rw [i0, i1, i2]
  have := t.isLt
  omega

theorem ublk_apply (c : Dev nD) (t : Fin cfg0.N) (r : Fin 4096) (l : Fin 128) :
    ublk m c t (ix3 (0 : Fin 1) r l) = uarg m c (ix1 (flat (blockNo t) r l)) := by
  obtain ⟨i0, i1, i2⟩ := index_u t
  unfold ublk iblk
  rw [View.read_apply]
  show V m c main_v3 _ = _
  rw [viewed_u]
  refine shapeCast_apply _ _ _ _ ?_
  rw [Shape.rowMajor_val_one, Shape.rowMajor_val_three]
  show (t.val * 4096 + r.val) * 128 + l.val
    = ((win0_3.index t 0 * 1 + 1 * 0) * 65536 + (win0_3.index t 1 * 4096 + 1 * r.val)) * 128 + (win0_3.index t 2 * 128 + 1 * l.val)
  rw [i0, i1, i2]
  have := t.isLt
  omega

/-! ## The output array's blocks -/

/-- An index of the 2 x 8 x 128 output array is in point `t`'s block iff each coordinate is in the block's range. -/
theorem mem_out_blk (t : Fin cfg0.N) (i : S2x8x128.Idx) :
    i ∈ ((cfg0.win 4).blk t).view.set
      ↔ ∀ a : Fin 3, win0_4.index t a * S1x8x128.size a ≤ (i a).val ∧ (i a).val < win0_4.index t a * S1x8x128.size a + S1x8x128.size a := by
  show i ∈ ((View.whole main_v4).slice (win0_4.rect t)).set ↔ _
  rw [View.set_slice_whole, Rect.mem_set_unit]
  exact Iff.rfl

end Cert.KernelIdeal.Blocks

end
-- ==== Proof.Acc.lean ====
/-
  The running total after every grid point, and the output array after the region.

  Write P(s) for the sum of block s (zero for s past the grid). The body restarts the total at the points that are
  multiples of 16 and adds to it at every other point, so by induction on the point the total after point n, at every
  one of its 8 x 128 entries, is  Σ P(s)  over  16·(n / 16) ≤ s ≤ n,  the blocks since the last restart. The output's
  staging block always holds a copy of the total. The output array 2 x 8 x 128 is written back at points 15 and 31,
  slab h from point 16 h + 15, so after the region every entry of slab h is  Σ P(s)  over  16 h ≤ s < 16 h + 16.
-/
import proofs.«135542_j28269474742650_1_alg».proof.Proof.Pieces
import proofs.«135542_j28269474742650_1_alg».proof.Proof.Payload
import proofs.«135542_j28269474742650_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Synapse Cert.KernelIdeal.Blocks Cert.KernelIdeal.Payload

variable (m : (ℓ : Loc nD τ sig) → Buf (Elt Ideal) ℓ)

/-- The sum of block `n`; zero past the grid. -/
def part (c : Dev nD) (n : ℕ) : EReal :=
  if h : n < cfg0.N then blockSum (ublk m c ⟨n, h⟩) (wblk m c ⟨n, h⟩) (fblk m c ⟨n, h⟩) (xblk m c ⟨n, h⟩) else 0

theorem part_at (c : Dev nD) (t : Fin cfg0.N) :
    part m c t.val = blockSum (ublk m c t) (wblk m c t) (fblk m c t) (xblk m c t) := dif_pos t.isLt

/-- The total the point before `t` left. -/
abbrev before (c : Dev nD) (t : Fin cfg0.N) : Vec Ideal S8x128 .f32 :=
  (outsAt0 m c (t.val - 1) (Nat.lt_of_le_of_lt (Nat.sub_le _ _) t.isLt)).2

/-- At a restarting point every entry of the total is that block's sum. -/
theorem total_at_restart (c : Dev nD) (t : Fin cfg0.N) (h0 : t.val % 16 = 0) (a : Fin 8) (b : Fin 128) :
    (outsAt0 m c t.val t.isLt).2 (ix2 a b) = part m c t.val := by
  rw [outsAt0_A m c t h0]
  dsimp only
  refine (congrFun (Pieces.total_restart (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (wblk m c t) (fblk m c t) (ublk m c t)) (ix2 a b)).trans ?_
  rw [total_apply, zero_apply, zero_add, part_at]

/-- At any other point every entry of the total is the entry before plus that block's sum. -/
theorem total_at_grow (c : Dev nD) (t : Fin cfg0.N) (h0 : ¬t.val % 16 = 0) (a : Fin 8) (b : Fin 128) :
    (outsAt0 m c t.val t.isLt).2 (ix2 a b) = before m c t (ix2 a b) + part m c t.val := by
  rw [outsAt0_B m c t h0]
  dsimp only
  refine (congrFun (Pieces.total_grow (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (wblk m c t) (fblk m c t) (ublk m c t) (before m c t)) (ix2 a b)).trans ?_
  rw [total_apply, part_at]

/-- At every point the output's staging block holds the total. -/
theorem staged_at (c : Dev nD) (t : Fin cfg0.N) (z : Fin 1) (a : Fin 8) (b : Fin 128) :
    (outsAt0 m c t.val t.isLt).1 (ix3 z a b) = (outsAt0 m c t.val t.isLt).2 (ix2 a b) := by
  by_cases h0 : t.val % 16 = 0
  · rw [outsAt0_A m c t h0]
    dsimp only
    refine (congrFun (Pieces.block_restart (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (wblk m c t) (fblk m c t) (ublk m c t)) (ix3 z a b)).trans ?_
    rw [staged_apply]
    exact (congrFun (Pieces.total_restart (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (wblk m c t) (fblk m c t) (ublk m c t)) (ix2 a b)).symm
  · rw [outsAt0_B m c t h0]
    dsimp only
    refine (congrFun (Pieces.block_grow (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (wblk m c t) (fblk m c t) (ublk m c t) (before m c t)) (ix3 z a b)).trans ?_
    rw [staged_apply]
    exact (congrFun (Pieces.total_grow (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (wblk m c t) (fblk m c t) (ublk m c t) (before m c t)) (ix2 a b)).symm

/-- THE RUNNING TOTAL: after point `n` every entry is the sum of the blocks since the last restart. -/
theorem total_eq (c : Dev nD) (a : Fin 8) (b : Fin 128) : ∀ (n : ℕ) (h : n < cfg0.N),
    (outsAt0 m c n h).2 (ix2 a b) = ∑ s ∈ Finset.Ico (16 * (n / 16)) (n + 1), part m c s
  | 0, h => by
    rw [sum_Ico_restart (part m c) 0 rfl]
    exact total_at_restart m c ⟨0, h⟩ rfl a b
  | n + 1, h => by
    by_cases h0 : (n + 1) % 16 = 0
    · rw [sum_Ico_restart (part m c) (n + 1) h0]
      exact total_at_restart m c ⟨n + 1, h⟩ h0 a b
    · rw [sum_Ico_grow (part m c) n h0, ← total_eq c a b n (Nat.lt_of_succ_lt h)]
      exact total_at_grow m c ⟨n + 1, h⟩ h0 a b

/-! ## The output array after the region -/

/-- Every entry of slab `h` of the output array: the sum of blocks 16 h .. 16 h + 15. -/
def outArr (c : Dev nD) : S2x8x128.Idx → EReal :=
  fun i => ∑ s ∈ Finset.Ico (16 * (i 0).val) (16 * (i 0).val + 16), part m c s

/-- What a point that writes back (15 or 31) writes is its slab of that array. -/
theorem flushed_eq (c : Dev nD) (t : Fin cfg0.N) (hf : (cfg0.win 4).flush t = true) :
    (dats m 0 c).flushed 4 t = ((cfg0.win 4).blk t).view.read (Elt Ideal) (outArr m c) := by
  have h15 : t.val % 16 = 15 := (flush0_4 t).mp hf
  obtain ⟨i0, i1, i2⟩ := index_out t
  show (cfg0.win 4).cut (grid0.coords t) ((dats m 0 c).after 4 t) = _
  rw [after0_4]
  funext y
  obtain ⟨z, a, b, rfl⟩ : ∃ (z : Fin 1) (a : Fin 8) (b : Fin 128), y = ix3 z a b := ⟨y 0, y 1, y 2, eq_ix3 y⟩
  rw [View.read_apply]
  show (outsAt0 m c t.val t.isLt).1 (ix3 z a b) = outArr m c (((cfg0.win 4).blk t).view.emb (ix3 z a b))
  rw [staged_at, total_eq]
  show _ = ∑ s ∈ Finset.Ico (16 * (win0_4.index t 0 * 1 + 1 * z.val)) (16 * (win0_4.index t 0 * 1 + 1 * z.val) + 16), part m c s
  rw [i0]
  have e1 : t.val / 16 * 1 + 1 * z.val = t.val / 16 := by omega
  have e2 : t.val + 1 = 16 * (t.val / 16) + 16 := by omega
  rw [e1, e2]

/-- The two slabs cover the array, so after the region it holds `outArr`. -/
theorem final_out (c : Dev nD) : (dats m 0 c).arrAt 4 cfg0.N = outArr m c :=
  (dats m 0 c).arrAt_eq_of_cover 4 (outArr m c) (flushed_eq m c) fun i => by
    have hi0 : (i 0).val < 2 := (i 0).isLt
    have hi1 : (i 1).val < 8 := (i 1).isLt
    have hi2 : (i 2).val < 128 := (i 2).isLt
    have hN : cfg0.N = 32 := N_0
    obtain ⟨t, ht⟩ : ∃ t : Fin cfg0.N, t.val = 16 * (i 0).val + 15 := ⟨⟨16 * (i 0).val + 15, by omega⟩, rfl⟩
    obtain ⟨e0, e1, e2⟩ := index_out t
    refine ⟨t, (flush0_4 t).mpr (by omega), ?_⟩
    rw [mem_out_blk]
    intro ax
    match ax with
    | ⟨0, _⟩ =>
      show win0_4.index t 0 * 1 ≤ (i 0).val ∧ (i 0).val < win0_4.index t 0 * 1 + 1
      rw [e0]; omega
    | ⟨1, _⟩ =>
      show win0_4.index t 1 * 8 ≤ (i 1).val ∧ (i 1).val < win0_4.index t 1 * 8 + 8
      rw [e1]; omega
    | ⟨2, _⟩ =>
      show win0_4.index t 2 * 128 ≤ (i 2).val ∧ (i 2).val < win0_4.index t 2 * 128 + 128
      rw [e2]; omega

end Cert.KernelIdeal.Acc

end
-- ==== Proof.Spec.lean ====
/-
  What both programs compute, as one term.

  total  = Σ over the 16,777,216 synapses n of the gated product  (w n · f n) · x n  where  u n < p,  0 elsewhere,
  result = tanh (0 + total)  where  0 + total > threshold,  0 elsewhere.

  The comparison, the hyperbolic tangent and the selection are the same operations, on the same threshold, in both
  programs, so they are kept as one function `finish` of the total and never opened.
-/
import proofs.«135542_j28269474742650_1_alg».proof.Proof.Sums
import Idealize.ShloMosaic.PureOps.Ideal

noncomputable section

open scoped BigOperators

namespace Cert.Synapse

open Idealize.ShloMosaic Idealize.ShloMosaic.ValueIdx

/-- The sum over all synapses of the gated product, the gate being  u n < p  with p the float nearest 0.9. -/
def synapseTotal (x w f u : (⟨1, ![16777216]⟩ : Shape).Idx → EReal) : EReal :=
  ∑ n : Fin 16777216,
    gated (Ideal.cmp .olt (u (ix1 n)) (Ideal.ofBits .f32 0x3F666666#32)) (w (ix1 n)) (f (ix1 n)) (x (ix1 n))

/-- Fire with tanh above the threshold, else zero: the last four operations of both programs. -/
def finish (total : FVec Ideal ⟨0, ![]⟩ .f32) (thr : FVec Ideal ⟨1, ![1]⟩ .f32)
    (h : (⟨1, ![1]⟩ : Shape).ShapeCasts ⟨0, ![]⟩) : FVec Ideal ⟨0, ![]⟩ .f32 :=
  select (cmpf .ogt total (shapeCast ⟨0, ![]⟩ thr h)) (Host.tanh total) (constant ⟨0, ![]⟩ .f32 0x00000000#32)

end Cert.Synapse

end
-- ==== Proof.KTail.lean ====
/-
  The kernel program after the region, read.

  After the region the program takes entry (h, 0, 0) of each slab of the 2 x 8 x 128 output array, adds the two to a
  zero, and finishes as the reference does. Slab h holds the sum of blocks 16 h .. 16 h + 15 at every entry, the two
  slabs together all 32 blocks, and block t's sum runs over its 4096 x 128 entries, which are the synapses
  (t · 4096 + r) · 128 + l: so the number the program finishes on is zero plus the total over all synapses.
-/
import proofs.«135542_j28269474742650_1_alg».proof.Proof.Acc
import proofs.«135542_j28269474742650_1_alg».proof.Proof.Spec
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen Cert.Synapse Cert.KernelIdeal.Blocks Cert.KernelIdeal.Payload Cert.KernelIdeal.Acc

variable (m : (ℓ : Loc nD τ sig) → Buf (Elt Ideal) ℓ) (ρ : Dev nD → PrngReg)

/-- The buffers as the region leaves them: its arrays as written back, every other buffer as the region found it. -/
abbrev left (c : Dev nD) : Valuation τ sig (Elt Ideal) :=
  Pipeline.withArrays (cfgs 0).spec c (V0 m c) (fun w => (dats m 0 c).arrAt w (cfgs 0).N)

theorem left_out (c : Dev nD) : left m c (Proc.devRef .tc main_v4) = outArr m c :=
  (Pipeline.withArrays_arr spec0 launch0.win.arr_inj c _ _ 4).trans (final_out m c)

theorem left_thr (c : Dev nD) : left m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-- The host's sum of a 2-vector from the zero word. -/
theorem hostSum2 (y : FVec Ideal S2 .f32) (i : S_.Idx) :
    Host.reduceAdd (F := Ideal) y (constant (F := Ideal) S_ .f32 0x00000000#32) reducesTo_S2_S_d0 h_S_ i = 0 + (y (ix1 (0 : Fin 2)) + y (ix1 (1 : Fin 2))) := by
  simp only [Host.reduceAdd, Ideal.hostReduceAdd_def]
  refine (Ideal.hostReduceAdd_total reducesTo_S2_S_d0 (fun b => b.elim0) y _ i).trans ?_
  rw [sum_idx1, Fin.sum_univ_two]
  exact congrArg (· + (y (ix1 (0 : Fin 2)) + y (ix1 (1 : Fin 2)))) Ideal.ofBits_zero_f32

/-- Entry k of the sliced and flattened output array is entry (k, 0, 0) of the array. -/
theorem corner_apply (O : S2x8x128.Idx → EReal) (k : Fin 2) :
    shapeCast S2 (extractStridedSlice S2x1x1 ![0, 0, 0] O slices_S2x8x128_S2x1x1_0_0_0) shapeCasts_S2x1x1_S2 (ix1 k)
      = O (ix3 k (0 : Fin 8) (0 : Fin 128)) := by
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · exact extractStridedSlice_apply _ O _ _ _ (fun a => by
      match a with
      | ⟨0, _⟩ => exact (Nat.zero_add _).symm
      | ⟨1, _⟩ => rfl
      | ⟨2, _⟩ => rfl)

/-- The number the kernel program finishes on: zero plus the total over all synapses. -/
theorem finished_on (c : Dev nD) (i : S_.Idx) :
    Host.reduceAdd (F := Ideal) (shapeCast S2 (extractStridedSlice S2x1x1 ![0, 0, 0] (outArr m c) slices_S2x8x128_S2x1x1_0_0_0) shapeCasts_S2x1x1_S2)
        (constant (F := Ideal) S_ .f32 0x00000000#32) reducesTo_S2_S_d0 h_S_ i
      = 0 + synapseTotal (xarg m c) (warg m c) (farg m c) (uarg m c) := by
  rw [hostSum2, corner_apply, corner_apply]
  refine congrArg ((0 : EReal) + ·) ?_
  refine (sum_two_groups (part m c)).trans ?_
  unfold synapseTotal
  rw [sum_flat]
  refine Finset.sum_congr rfl fun t _ => ?_
  have ht : t.val < cfg0.N := lt_of_lt_of_eq t.isLt (N_0 : cfg0.N = 32).symm
  refine (part_at m c ⟨t.val, ht⟩).trans ?_
  unfold blockSum
  refine Finset.sum_congr rfl fun r _ => Finset.sum_congr rfl fun l _ => ?_
  rw [ublk_apply, wblk_apply, fblk_apply, xblk_apply]

/-- The kernel program's result buffer after the run. -/
theorem result_eq (c : Dev nD) :
    Pipeline.afterTail₀ cfgs (dats m) 0 (V0 m) [hostOps1, hostOps1_1] c main_v11
      = finish (fun _ => 0 + synapseTotal (xarg m c) (warg m c) (farg m c) (uarg m c)) (m ((c : Thread nD τ).loc main_arg4)) shapeCasts_S1_S_ := by
  have e : Pipeline.afterTail₀ cfgs (dats m) 0 (V0 m) [hostOps1, hostOps1_1] c main_v11
      = finish (Host.reduceAdd (F := Ideal) (shapeCast S2 (extractStridedSlice S2x1x1 ![0, 0, 0] (left m c (Proc.devRef .tc main_v4)) slices_S2x8x128_S2x1x1_0_0_0) shapeCasts_S2x1x1_S2)
          (constant (F := Ideal) S_ .f32 0x00000000#32) reducesTo_S2_S_d0 h_S_) (left m c (Proc.devRef .tc main_arg4)) shapeCasts_S1_S_ := by
    unfold Pipeline.afterTail₀
    simp only [hostOps1, hostOps1_1, List.flatten_cons, List.flatten_nil, List.append_nil, List.cons_append, List.nil_append]
    after_results
    rfl
  rw [e, left_out, left_thr]
  exact congrArg (fun T => finish T (m ((c : Thread nD τ).loc main_arg4)) shapeCasts_S1_S_) (funext (finished_on m c))

/-- THE RUN, READ: every weakly fair execution ends with the result at the finish of zero plus the total over all
    synapses, the arguments unchanged. -/
theorem run : θ_run defs (onTc (τ := τ) (main (F := Ideal))) ⟨m, fun _ => 0, ρ⟩ (fun r => ∀ c : Dev nD,
      r.2.mem ((c.tc : Thread nD τ).loc main_v11)
        = finish (fun _ => 0 + synapseTotal (xarg m c) (warg m c) (farg m c) (uarg m c)) (m ((c : Thread nD τ).loc main_arg4)) shapeCasts_S1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KTail

end
-- ==== Proof.RefValue.lean ====
/-
  The reference, read.

  Its sum runs over all synapses at once, from the zero it is started with; each summand is the masked product
  ((mask · w) · f) · x with the mask the comparison u < p read as the number 0 or 1, which is the gated product.
-/
import proofs.«135542_j28269474742650_1_alg».proof.Proof.Gen.ReferenceIdeal.Read
import proofs.«135542_j28269474742650_1_alg».proof.Proof.Spec
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Synapse

/-- The reference's sum is zero plus the total over all synapses. -/
theorem total_eq (x0 x1 x2 x3 : (⟨S16777216, .f32⟩ : BufTy).Contents (Elt Ideal)) (i : S_.Idx) :
    val_main_v6 (F := Ideal) x0 x1 x2 x3 i = 0 + synapseTotal x0 x1 x2 x3 := by
  rw [val_main_v6_apply, val_main_cst_0_apply,
    show (FloatOps.ofBits FTy.f32 0x00000000#32 : Ideal .f32) = 0 from Ideal.ofBits_zero_f32]
  refine congrArg ((0 : EReal) + ·) ?_
  rw [sum_idx1]
  unfold synapseTotal
  refine Finset.sum_congr rfl fun n _ => ?_
  rw [val_main_v5_apply, val_main_v4_apply, val_main_v3_apply, val_main_v2_apply, val_main_v1_apply, val_main_v0_apply,
    val_main_cst_apply]
  exact mask_mul_eq_gated _ _ _ _

/-- The reference's result: the finish of that sum. -/
theorem result_eq (x0 x1 x2 x3 : (⟨S16777216, .f32⟩ : BufTy).Contents (Elt Ideal)) (x4 : (⟨S1, .f32⟩ : BufTy).Contents (Elt Ideal)) :
    val_main_v10 (F := Ideal) x0 x1 x2 x3 x4 = finish (fun _ => 0 + synapseTotal x0 x1 x2 x3) x4 shapeCasts_S1_S_ := by
  have e : val_main_v6 (F := Ideal) x0 x1 x2 x3 = fun _ => 0 + synapseTotal x0 x1 x2 x3 := funext (total_eq x0 x1 x2 x3)
  show finish (val_main_v6 (F := Ideal) x0 x1 x2 x3) x4 shapeCasts_S1_S_ = _
  rw [e]

end Cert.ReferenceIdeal.RefValue

end
-- ==== Proof.lean ====
/-
  A synaptic release sum: the certificate's assembly.

  Both programs take x, weights, fatigue and u (16,777,216 floats each) and a one-element threshold. With p the float
  nearest 0.9, each synapse n contributes  weights n · fatigue n · x n  when  u n < p  and nothing otherwise; the
  contributions are added up, and the result is tanh of the sum where the sum exceeds the threshold, zero elsewhere.

  The reference multiplies by the 0/1 mask and adds all synapses in one sum. The kernel views each array as
  2 x 65536 x 128, walks it in 32 blocks of 4096 x 128, selects between the product and zero, adds each block's lanes
  and rows into a running total that restarts at blocks 0 and 16, writes the two totals out after blocks 15 and 31,
  and the program then adds those two numbers. Over the extended reals the masked product is the selected one
  (1 · w = w, 0 · anything = 0, the product is associative), and the two ways of grouping the sum agree because
  addition is commutative and associative; no finiteness of the inputs is used. The comparison with the threshold,
  the hyperbolic tangent and the selection are the same operations on both sides and are never opened.

  The modules: Sums (the arithmetic), Spec (the common term), Pieces, Payload, Blocks, Acc, KTail (the kernel
  program, from what one run of its body leaves to its result buffer), RefValue (the reference).
  No operation of the kernel was rewritten for its reading over the extended reals: that reading is the kernel's own text.
-/
import proofs.«135542_j28269474742650_1_alg».proof.Defs
import proofs.«135542_j28269474742650_1_alg».proof.Proof.Gen.Kernel
import proofs.«135542_j28269474742650_1_alg».proof.Proof.Gen.Kernel.Skeleton
import proofs.«135542_j28269474742650_1_alg».proof.Proof.Gen.Kernel.Launch
import proofs.«135542_j28269474742650_1_alg».proof.Proof.Gen.Kernel.Points
import proofs.«135542_j28269474742650_1_alg».proof.Proof.Gen.Kernel.Frame
import proofs.«135542_j28269474742650_1_alg».proof.Proof.Gen.KernelIdeal
import proofs.«135542_j28269474742650_1_alg».proof.Proof.Gen.KernelIdeal.Skeleton
import proofs.«135542_j28269474742650_1_alg».proof.Proof.Gen.KernelIdeal.Launch
import proofs.«135542_j28269474742650_1_alg».proof.Proof.Gen.KernelIdeal.Points
import proofs.«135542_j28269474742650_1_alg».proof.Proof.Gen.KernelIdeal.Frame
import proofs.«135542_j28269474742650_1_alg».proof.Proof.Gen.ReferenceIdeal
import proofs.«135542_j28269474742650_1_alg».proof.Proof.Gen.Pre_finite_inputs
import proofs.«135542_j28269474742650_1_alg».proof.Proof.Gen.ReferenceIdeal.Run
import proofs.«135542_j28269474742650_1_alg».proof.Proof.Gen.ReferenceIdeal.Read
import proofs.«135542_j28269474742650_1_alg».proof.Proof.KTail
import proofs.«135542_j28269474742650_1_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- Both programs end with the finish of zero plus the total over all synapses, of arguments that agree. -/
theorem algebraic : Cert.algebraic_KernelIdeal_ReferenceIdeal := by
  intro m ρ m' ρ' _ hagree
  refine ⟨_, Cert.KernelIdeal.KTail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
